-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x64 : Shape := ⟨3, ![32768, 2, 64]⟩
abbrev S_ : Shape := ⟨0, ![]⟩

class Facts : Prop where
  bcast_S_S32768x2x64 : S_.BroadcastsInDim S32768x2x64 (![] : Fin 0 → Fin S32768x2x64.rank)
  reducesTo_S32768x2x64_S_d0_1_2 : S32768x2x64.ReducesTo [0, 1, 2] S_
  h_S_ : 0 < S_.numel

variable [Facts]

def fn {F : FTy → Type} [FloatOps F] (main_arg0 : FVec F S32768x2x64 .f32) : IVec S_ 1 :=
  let main_v0 : FVec F S32768x2x64 .f32 := Host.absf main_arg0
  let main_cst : FVec F S_ .f32 := constant S_ .f32 0x7F800000#32
  let main_v1 : FVec F S32768x2x64 .f32 := broadcastInDim S32768x2x64 ![] bcast_S_S32768x2x64 main_cst
  let main_v2 : IVec S32768x2x64 1 := cmpf .olt main_v0 main_v1
  let main_c : IVec S_ 1 := constantI S_ 1 1#1
  let main_v3 : IVec S_ 1 := (fun x v => Host.reduce IntOp.andi x v reducesTo_S32768x2x64_S_d0_1_2 h_S_) main_v2 main_c
  main_v3
-- ==== Kernel.lean ====
abbrev S32768x2x64 : Shape := ⟨3, ![32768, 2, 64]⟩
abbrev S32768x1x64 : Shape := ⟨3, ![32768, 1, 64]⟩
abbrev S32768x64 : Shape := ⟨2, ![32768, 64]⟩
abbrev S32768x4096 : Shape := ⟨2, ![32768, 4096]⟩
abbrev S1024x64 : Shape := ⟨2, ![1024, 64]⟩
abbrev S1024x4096 : Shape := ⟨2, ![1024, 4096]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x2x64, .f32⟩
  | .hbm, ⟨1, _⟩ => ⟨S32768x1x64, .f32⟩
  | .hbm, ⟨2, _⟩ => ⟨S32768x64, .f32⟩
  | .hbm, ⟨3, _⟩ => ⟨S32768x1x64, .f32⟩
  | .hbm, ⟨4, _⟩ => ⟨S32768x64, .f32⟩
  | .hbm, ⟨5, _⟩ => ⟨S32768x4096, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x4096, .f32⟩
  | .local _ .vmem, ⟨5, _⟩ => ⟨S1024x4096, .f32⟩
  | _, _ => ⟨S32768x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S32768x2x64_S32768x1x64_0_0_0 : S32768x2x64.Slices ![0, 0, 0] S32768x1x64
  shapeCasts_S32768x1x64_S32768x64 : S32768x1x64.ShapeCasts S32768x64
  slices_S32768x2x64_S32768x1x64_0_1_0 : S32768x2x64.Slices ![0, 1, 0] S32768x1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x64_o0_0_S1024x1 : S1024x64.Slices ![0, 0] S1024x1
  broadcasts_S1024x1_S1024x64 : S1024x1.Broadcasts S1024x64
  inb_S1024x4096_S1024x64_0_0 : ∀ a, (![0, 0] : Fin 2 → Nat) a + S1024x64.size a ≤ S1024x4096.size a
  slices_S1024x64_o0_1_S1024x1 : S1024x64.Slices ![0, 1] S1024x1
  inb_S1024x4096_S1024x64_0_64 : ∀ a, (![0, 64] : Fin 2 → Nat) a + S1024x64.size a ≤ S1024x4096.size a
  slices_S1024x64_o0_2_S1024x1 : S1024x64.Slices ![0, 2] S1024x1
  inb_S1024x4096_S1024x64_0_128 : ∀ a, (![0, 128] : Fin 2 → Nat) a + S1024x64.size a ≤ S1024x4096.size a
  slices_S1024x64_o0_3_S1024x1 : S1024x64.Slices ![0, 3] S1024x1
  inb_S1024x4096_S1024x64_0_192 : ∀ a, (![0, 192] : Fin 2 → Nat) a + S1024x64.size a ≤ S1024x4096.size a
  slices_S1024x64_o0_4_S1024x1 : S1024x64.Slices ![0, 4] S1024x1
  inb_S1024x4096_S1024x64_0_256 : ∀ a, (![0, 256] : Fin 2 → Nat) a + S1024x64.size a ≤ S1024x4096.size a
  slices_S1024x64_o0_5_S1024x1 : S1024x64.Slices ![0, 5] S1024x1
  inb_S1024x4096_S1024x64_0_320 : ∀ a, (![0, 320] : Fin 2 → Nat) a + S1024x64.size a ≤ S1024x4096.size a
  slices_S1024x64_o0_6_S1024x1 : S1024x64.Slices ![0, 6] S1024x1
  inb_S1024x4096_S1024x64_0_384 : ∀ a, (![0, 384] : Fin 2 → Nat) a + S1024x64.size a ≤ S1024x4096.size a
  slices_S1024x64_o0_7_S1024x1 : S1024x64.Slices ![0, 7] S1024x1
  inb_S1024x4096_S1024x64_0_448 : ∀ a, (![0, 448] : Fin 2 → Nat) a + S1024x64.size a ≤ S1024x4096.size a
  slices_S1024x64_o0_8_S1024x1 : S1024x64.Slices ![0, 8] S1024x1
  inb_S1024x4096_S1024x64_0_512 : ∀ a, (![0, 512] : Fin 2 → Nat) a + S1024x64.size a ≤ S1024x4096.size a
  slices_S1024x64_o0_9_S1024x1 : S1024x64.Slices ![0, 9] S1024x1
  inb_S1024x4096_S1024x64_0_576 : ∀ a, (![0, 576] : Fin 2 → Nat) a + S1024x64.size a ≤ S1024x4096.size a
  slices_S1024x64_o0_10_S1024x1 : S1024x64.Slices ![0, 10] S1024x1
  inb_S1024x4096_S1024x64_0_640 : ∀ a, (![0, 640] : Fin 2 → Nat) a + S1024x64.size a ≤ S1024x4096.size a
  slices_S1024x64_o0_11_S1024x1 : S1024x64.Slices ![0, 11] S1024x1
  inb_S1024x4096_S1024x64_0_704 : ∀ a, (![0, 704] : Fin 2 → Nat) a + S1024x64.size a ≤ S1024x4096.size a
  slices_S1024x64_o0_12_S1024x1 : S1024x64.Slices ![0, 12] S1024x1
  inb_S1024x4096_S1024x64_0_768 : ∀ a, (![0, 768] : Fin 2 → Nat) a + S1024x64.size a ≤ S1024x4096.size a
  slices_S1024x64_o0_13_S1024x1 : S1024x64.Slices ![0, 13] S1024x1
  inb_S1024x4096_S1024x64_0_832 : ∀ a, (![0, 832] : Fin 2 → Nat) a + S1024x64.size a ≤ S1024x4096.size a
  slices_S1024x64_o0_14_S1024x1 : S1024x64.Slices ![0, 14] S1024x1
  inb_S1024x4096_S1024x64_0_896 : ∀ a, (![0, 896] : Fin 2 → Nat) a + S1024x64.size a ≤ S1024x4096.size a
  slices_S1024x64_o0_15_S1024x1 : S1024x64.Slices ![0, 15] S1024x1
  inb_S1024x4096_S1024x64_0_960 : ∀ a, (![0, 960] : Fin 2 → Nat) a + S1024x64.size a ≤ S1024x4096.size a
  slices_S1024x64_o0_16_S1024x1 : S1024x64.Slices ![0, 16] S1024x1
  inb_S1024x4096_S1024x64_0_1024 : ∀ a, (![0, 1024] : Fin 2 → Nat) a + S1024x64.size a ≤ S1024x4096.size a
  slices_S1024x64_o0_17_S1024x1 : S1024x64.Slices ![0, 17] S1024x1
  inb_S1024x4096_S1024x64_0_1088 : ∀ a, (![0, 1088] : Fin 2 → Nat) a + S1024x64.size a ≤ S1024x4096.size a
  slices_S1024x64_o0_18_S1024x1 : S1024x64.Slices ![0, 18] S1024x1
  inb_S1024x4096_S1024x64_0_1152 : ∀ a, (![0, 1152] : Fin 2 → Nat) a + S1024x64.size a ≤ S1024x4096.size a
  slices_S1024x64_o0_19_S1024x1 : S1024x64.Slices ![0, 19] S1024x1
  inb_S1024x4096_S1024x64_0_1216 : ∀ a, (![0, 1216] : Fin 2 → Nat) a + S1024x64.size a ≤ S1024x4096.size a
  slices_S1024x64_o0_20_S1024x1 : S1024x64.Slices ![0, 20] S1024x1
  inb_S1024x4096_S1024x64_0_1280 : ∀ a, (![0, 1280] : Fin 2 → Nat) a + S1024x64.size a ≤ S1024x4096.size a
  slices_S1024x64_o0_21_S1024x1 : S1024x64.Slices ![0, 21] S1024x1
  inb_S1024x4096_S1024x64_0_1344 : ∀ a, (![0, 1344] : Fin 2 → Nat) a + S1024x64.size a ≤ S1024x4096.size a
  slices_S1024x64_o0_22_S1024x1 : S1024x64.Slices ![0, 22] S1024x1
  inb_S1024x4096_S1024x64_0_1408 : ∀ a, (![0, 1408] : Fin 2 → Nat) a + S1024x64.size a ≤ S1024x4096.size a
  slices_S1024x64_o0_23_S1024x1 : S1024x64.Slices ![0, 23] S1024x1
  inb_S1024x4096_S1024x64_0_1472 : ∀ a, (![0, 1472] : Fin 2 → Nat) a + S1024x64.size a ≤ S1024x4096.size a
  slices_S1024x64_o0_24_S1024x1 : S1024x64.Slices ![0, 24] S1024x1
  inb_S1024x4096_S1024x64_0_1536 : ∀ a, (![0, 1536] : Fin 2 → Nat) a + S1024x64.size a ≤ S1024x4096.size a
  slices_S1024x64_o0_25_S1024x1 : S1024x64.Slices ![0, 25] S1024x1
  inb_S1024x4096_S1024x64_0_1600 : ∀ a, (![0, 1600] : Fin 2 → Nat) a + S1024x64.size a ≤ S1024x4096.size a
  slices_S1024x64_o0_26_S1024x1 : S1024x64.Slices ![0, 26] S1024x1
  inb_S1024x4096_S1024x64_0_1664 : ∀ a, (![0, 1664] : Fin 2 → Nat) a + S1024x64.size a ≤ S1024x4096.size a
  slices_S1024x64_o0_27_S1024x1 : S1024x64.Slices ![0, 27] S1024x1
  inb_S1024x4096_S1024x64_0_1728 : ∀ a, (![0, 1728] : Fin 2 → Nat) a + S1024x64.size a ≤ S1024x4096.size a
  slices_S1024x64_o0_28_S1024x1 : S1024x64.Slices ![0, 28] S1024x1
  inb_S1024x4096_S1024x64_0_1792 : ∀ a, (![0, 1792] : Fin 2 → Nat) a + S1024x64.size a ≤ S1024x4096.size a
  slices_S1024x64_o0_29_S1024x1 : S1024x64.Slices ![0, 29] S1024x1
  inb_S1024x4096_S1024x64_0_1856 : ∀ a, (![0, 1856] : Fin 2 → Nat) a + S1024x64.size a ≤ S1024x4096.size a
  slices_S1024x64_o0_30_S1024x1 : S1024x64.Slices ![0, 30] S1024x1
  inb_S1024x4096_S1024x64_0_1920 : ∀ a, (![0, 1920] : Fin 2 → Nat) a + S1024x64.size a ≤ S1024x4096.size a
  slices_S1024x64_o0_31_S1024x1 : S1024x64.Slices ![0, 31] S1024x1
  inb_S1024x4096_S1024x64_0_1984 : ∀ a, (![0, 1984] : Fin 2 → Nat) a + S1024x64.size a ≤ S1024x4096.size a
  slices_S1024x64_o0_32_S1024x1 : S1024x64.Slices ![0, 32] S1024x1
  inb_S1024x4096_S1024x64_0_2048 : ∀ a, (![0, 2048] : Fin 2 → Nat) a + S1024x64.size a ≤ S1024x4096.size a
  slices_S1024x64_o0_33_S1024x1 : S1024x64.Slices ![0, 33] S1024x1
  inb_S1024x4096_S1024x64_0_2112 : ∀ a, (![0, 2112] : Fin 2 → Nat) a + S1024x64.size a ≤ S1024x4096.size a
  slices_S1024x64_o0_34_S1024x1 : S1024x64.Slices ![0, 34] S1024x1
  inb_S1024x4096_S1024x64_0_2176 : ∀ a, (![0, 2176] : Fin 2 → Nat) a + S1024x64.size a ≤ S1024x4096.size a
  slices_S1024x64_o0_35_S1024x1 : S1024x64.Slices ![0, 35] S1024x1
  inb_S1024x4096_S1024x64_0_2240 : ∀ a, (![0, 2240] : Fin 2 → Nat) a + S1024x64.size a ≤ S1024x4096.size a
  slices_S1024x64_o0_36_S1024x1 : S1024x64.Slices ![0, 36] S1024x1
  inb_S1024x4096_S1024x64_0_2304 : ∀ a, (![0, 2304] : Fin 2 → Nat) a + S1024x64.size a ≤ S1024x4096.size a
  slices_S1024x64_o0_37_S1024x1 : S1024x64.Slices ![0, 37] S1024x1
  inb_S1024x4096_S1024x64_0_2368 : ∀ a, (![0, 2368] : Fin 2 → Nat) a + S1024x64.size a ≤ S1024x4096.size a
  slices_S1024x64_o0_38_S1024x1 : S1024x64.Slices ![0, 38] S1024x1
  inb_S1024x4096_S1024x64_0_2432 : ∀ a, (![0, 2432] : Fin 2 → Nat) a + S1024x64.size a ≤ S1024x4096.size a
  slices_S1024x64_o0_39_S1024x1 : S1024x64.Slices ![0, 39] S1024x1
  inb_S1024x4096_S1024x64_0_2496 : ∀ a, (![0, 2496] : Fin 2 → Nat) a + S1024x64.size a ≤ S1024x4096.size a
  slices_S1024x64_o0_40_S1024x1 : S1024x64.Slices ![0, 40] S1024x1
  inb_S1024x4096_S1024x64_0_2560 : ∀ a, (![0, 2560] : Fin 2 → Nat) a + S1024x64.size a ≤ S1024x4096.size a
  slices_S1024x64_o0_41_S1024x1 : S1024x64.Slices ![0, 41] S1024x1
  inb_S1024x4096_S1024x64_0_2624 : ∀ a, (![0, 2624] : Fin 2 → Nat) a + S1024x64.size a ≤ S1024x4096.size a
  slices_S1024x64_o0_42_S1024x1 : S1024x64.Slices ![0, 42] S1024x1
  inb_S1024x4096_S1024x64_0_2688 : ∀ a, (![0, 2688] : Fin 2 → Nat) a + S1024x64.size a ≤ S1024x4096.size a
  slices_S1024x64_o0_43_S1024x1 : S1024x64.Slices ![0, 43] S1024x1
  inb_S1024x4096_S1024x64_0_2752 : ∀ a, (![0, 2752] : Fin 2 → Nat) a + S1024x64.size a ≤ S1024x4096.size a
  slices_S1024x64_o0_44_S1024x1 : S1024x64.Slices ![0, 44] S1024x1
  inb_S1024x4096_S1024x64_0_2816 : ∀ a, (![0, 2816] : Fin 2 → Nat) a + S1024x64.size a ≤ S1024x4096.size a
  slices_S1024x64_o0_45_S1024x1 : S1024x64.Slices ![0, 45] S1024x1
  inb_S1024x4096_S1024x64_0_2880 : ∀ a, (![0, 2880] : Fin 2 → Nat) a + S1024x64.size a ≤ S1024x4096.size a
  slices_S1024x64_o0_46_S1024x1 : S1024x64.Slices ![0, 46] S1024x1
  inb_S1024x4096_S1024x64_0_2944 : ∀ a, (![0, 2944] : Fin 2 → Nat) a + S1024x64.size a ≤ S1024x4096.size a
  slices_S1024x64_o0_47_S1024x1 : S1024x64.Slices ![0, 47] S1024x1
  inb_S1024x4096_S1024x64_0_3008 : ∀ a, (![0, 3008] : Fin 2 → Nat) a + S1024x64.size a ≤ S1024x4096.size a
  slices_S1024x64_o0_48_S1024x1 : S1024x64.Slices ![0, 48] S1024x1
  inb_S1024x4096_S1024x64_0_3072 : ∀ a, (![0, 3072] : Fin 2 → Nat) a + S1024x64.size a ≤ S1024x4096.size a
  slices_S1024x64_o0_49_S1024x1 : S1024x64.Slices ![0, 49] S1024x1
  inb_S1024x4096_S1024x64_0_3136 : ∀ a, (![0, 3136] : Fin 2 → Nat) a + S1024x64.size a ≤ S1024x4096.size a
  slices_S1024x64_o0_50_S1024x1 : S1024x64.Slices ![0, 50] S1024x1
  inb_S1024x4096_S1024x64_0_3200 : ∀ a, (![0, 3200] : Fin 2 → Nat) a + S1024x64.size a ≤ S1024x4096.size a
  slices_S1024x64_o0_51_S1024x1 : S1024x64.Slices ![0, 51] S1024x1
  inb_S1024x4096_S1024x64_0_3264 : ∀ a, (![0, 3264] : Fin 2 → Nat) a + S1024x64.size a ≤ S1024x4096.size a
  slices_S1024x64_o0_52_S1024x1 : S1024x64.Slices ![0, 52] S1024x1
  inb_S1024x4096_S1024x64_0_3328 : ∀ a, (![0, 3328] : Fin 2 → Nat) a + S1024x64.size a ≤ S1024x4096.size a
  slices_S1024x64_o0_53_S1024x1 : S1024x64.Slices ![0, 53] S1024x1
  inb_S1024x4096_S1024x64_0_3392 : ∀ a, (![0, 3392] : Fin 2 → Nat) a + S1024x64.size a ≤ S1024x4096.size a
  slices_S1024x64_o0_54_S1024x1 : S1024x64.Slices ![0, 54] S1024x1
  inb_S1024x4096_S1024x64_0_3456 : ∀ a, (![0, 3456] : Fin 2 → Nat) a + S1024x64.size a ≤ S1024x4096.size a
  slices_S1024x64_o0_55_S1024x1 : S1024x64.Slices ![0, 55] S1024x1
  inb_S1024x4096_S1024x64_0_3520 : ∀ a, (![0, 3520] : Fin 2 → Nat) a + S1024x64.size a ≤ S1024x4096.size a
  slices_S1024x64_o0_56_S1024x1 : S1024x64.Slices ![0, 56] S1024x1
  inb_S1024x4096_S1024x64_0_3584 : ∀ a, (![0, 3584] : Fin 2 → Nat) a + S1024x64.size a ≤ S1024x4096.size a
  slices_S1024x64_o0_57_S1024x1 : S1024x64.Slices ![0, 57] S1024x1
  inb_S1024x4096_S1024x64_0_3648 : ∀ a, (![0, 3648] : Fin 2 → Nat) a + S1024x64.size a ≤ S1024x4096.size a
  slices_S1024x64_o0_58_S1024x1 : S1024x64.Slices ![0, 58] S1024x1
  inb_S1024x4096_S1024x64_0_3712 : ∀ a, (![0, 3712] : Fin 2 → Nat) a + S1024x64.size a ≤ S1024x4096.size a
  slices_S1024x64_o0_59_S1024x1 : S1024x64.Slices ![0, 59] S1024x1
  inb_S1024x4096_S1024x64_0_3776 : ∀ a, (![0, 3776] : Fin 2 → Nat) a + S1024x64.size a ≤ S1024x4096.size a
  slices_S1024x64_o0_60_S1024x1 : S1024x64.Slices ![0, 60] S1024x1
  inb_S1024x4096_S1024x64_0_3840 : ∀ a, (![0, 3840] : Fin 2 → Nat) a + S1024x64.size a ≤ S1024x4096.size a
  slices_S1024x64_o0_61_S1024x1 : S1024x64.Slices ![0, 61] S1024x1
  inb_S1024x4096_S1024x64_0_3904 : ∀ a, (![0, 3904] : Fin 2 → Nat) a + S1024x64.size a ≤ S1024x4096.size a
  slices_S1024x64_o0_62_S1024x1 : S1024x64.Slices ![0, 62] S1024x1
  inb_S1024x4096_S1024x64_0_3968 : ∀ a, (![0, 3968] : Fin 2 → Nat) a + S1024x64.size a ≤ S1024x4096.size a
  slices_S1024x64_o0_63_S1024x1 : S1024x64.Slices ![0, 63] S1024x1
  inb_S1024x4096_S1024x64_0_4032 : ∀ a, (![0, 4032] : Fin 2 → Nat) a + S1024x64.size a ≤ S1024x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S32768x64.size a
  hwx0_0 : ∀ i : grid0.Coords, EltTy.bits .f32 = 32 ∨ (Rect.block (s := S32768x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S32768x64.size a
  hwx0_1 : ∀ i : grid0.Coords, EltTy.bits .f32 = 32 ∨ (Rect.block (s := S32768x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S32768x4096.size a
  hwx0_2 : ∀ i : grid0.Coords, EltTy.bits .f32 = 32 ∨ (Rect.block (s := S32768x4096) S1024x4096.size (cc0_transform_2 i) (hinb0_2 i)).WholeWords (EltTy.packing .f32)

variable [Facts₀]

abbrev win0_0 : Pipeline.Window sig grid0 :=
  Pipeline.Window.ofSpec (Memref.whole main_v1) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2x64 : Shape := ⟨3, ![32768, 2, 64]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S32768x4096 : Shape := ⟨2, ![32768, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32768x2x64, .f32⟩
  | .hbm, ⟨1, _⟩ => ⟨S4096, .i32⟩
  | .hbm, ⟨2, _⟩ => ⟨S4096, .i1⟩
  | .hbm, ⟨3, _⟩ => ⟨S4096, .i32⟩
  | .hbm, ⟨4, _⟩ => ⟨S4096, .i1⟩
  | .hbm, ⟨5, _⟩ => ⟨S4096, .i32⟩
  | .hbm, ⟨6, _⟩ => ⟨S4096, .i1⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S32768x4096, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x1, .i32⟩
  | .hbm, ⟨31, _⟩ => ⟨S4096x2, .i32⟩
  | .hbm, ⟨32, _⟩ => ⟨S32768x4096, .f32⟩
  | .hbm, ⟨33, _⟩ => ⟨S32768x4096, .f32⟩
  | _, _ => ⟨S32768x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_8 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_10 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S32768x2x64_S4096x2_S32768x4096_0_12_n_n_12_1_3276811_wf : GatherDims.WF S32768x2x64 S4096x2 S32768x4096 [0] [1, 2] [] [1, 2] [] 1 ![32768, 1, 1]

variable [Facts₀]

def gather_S32768x2x64_S4096x2_S32768x4096_0_12_n_n_12_1_3276811 : GatherDims S32768x2x64 S4096x2 S32768x4096 where
  offsetDims := [0]
  collapsedSliceDims := [1, 2]
  operandBatchingDims := []
  startIndicesBatchingDims := []
  startIndexMap := [1, 2]
  indexVectorDim := 1
  sliceSizes := ![32768, 1, 1]
  wf := gather_S32768x2x64_S4096x2_S32768x4096_0_12_n_n_12_1_3276811_wf

class Facts : Prop extends Facts₀ where

variable [Facts]
-- ==== Proof.KernelPlanes.lean ====
/- The kernel's two input arrays as its one region finds them.

   Before the region the program cuts the input x : [32768, 2, 64] into its two planes: x₀ = x[:, 0, :] and
   x₁ = x[:, 1, :], each a unit-stride slice [32768, 1, 64] reshaped to [32768, 64]. A slice reads the operand at the
   index shifted by the offsets, and the reshape only drops the unit axis (same row-major position), so
       x₀[b, q] = x[b, 0, q]   and   x₁[b, q] = x[b, 1, q]. -/
import proofs.«174064_j85203561218828_1_alg».proof.Proof.Gen.KernelIdeal.Frame
import Idealize.ShloMosaic.Lib.StableHlo.Run
import Idealize.ShloMosaic.Lib.Pipeline.Value
import Idealize.ShloMosaic.Lib.ValueIdx

noncomputable section

namespace Cert.RuleStrength.KernelPlanes

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- Plane `o` of a [32768, 2, 64] array, sliced out and reshaped to a matrix, holds at (b, q) the array's
    element (b, o, q). -/
theorem plane_apply {α : Type} (x : S32768x2x64.Idx → α) (o : Nat) (ho : o < 2)
    (hs : S32768x2x64.Slices ![0, o, 0] S32768x1x64) (hc : S32768x1x64.ShapeCasts S32768x64)
    (b : Fin 32768) (q : Fin 64) :
    shapeCast S32768x64 (extractStridedSlice S32768x1x64 ![0, o, 0] x hs) hc (ix2 b q)
      = x (ix3 b (⟨o, ho⟩ : Fin 2) q) := by
  rw [shapeCast_apply _ hc (ix2 b q) (ix3 b (0 : Fin 1) q) (by
    rw [Shape.rowMajor_val_three, Shape.rowMajor_val_two]
    show (b.val * 1 + 0) * 64 + q.val = b.val * 64 + q.val
    omega)]
  exact extractStridedSlice_apply _ x hs _ (ix3 b (⟨o, ho⟩ : Fin 2) q) (fun a => by
    match a with
    | ⟨0, _⟩ => show b.val = 0 + b.val; omega
    | ⟨1, _⟩ => show o = o + 0; omega
    | ⟨2, _⟩ => show q.val = 0 + q.val; omega)

variable (m : (ℓ : Loc nD τ sig) → Buf (Elt F) ℓ)

/-- The first window's array when the region is entered: plane 0 of the input. -/
theorem first_eq (c : Dev nD) :
    (V m c main_v1 : FVec F S32768x64 .f32)
      = shapeCast S32768x64 (extractStridedSlice S32768x1x64 ![0, 0, 0] (m ((c : Thread nD τ).loc main_arg0))
          slices_S32768x2x64_S32768x1x64_0_0_0) shapeCasts_S32768x1x64_S32768x64 := by
  dsimp only [Gen.V, Gen.hostOps0]
  after_results
  rfl

/-- The second window's array when the region is entered: plane 1 of the input. -/
theorem second_eq (c : Dev nD) :
    (V m c main_v3 : FVec F S32768x64 .f32)
      = shapeCast S32768x64 (extractStridedSlice S32768x1x64 ![0, 1, 0] (m ((c : Thread nD τ).loc main_arg0))
          slices_S32768x2x64_S32768x1x64_0_1_0) shapeCasts_S32768x1x64_S32768x64 := by
  dsimp only [Gen.V, Gen.hostOps0]
  after_results
  rfl

/-- `x₀[b, q] = x[b, 0, q]`. -/
theorem first_at (c : Dev nD) (b : Fin 32768) (q : Fin 64) :
    (V m c main_v1 : FVec F S32768x64 .f32) (ix2 b q)
      = (m ((c : Thread nD τ).loc main_arg0) : FVec F S32768x2x64 .f32) (ix3 b (0 : Fin 2) q) := by
  rw [first_eq]
  exact plane_apply _ 0 (by decide) _ _ b q

/-- `x₁[b, q] = x[b, 1, q]`. -/
theorem second_at (c : Dev nD) (b : Fin 32768) (q : Fin 64) :
    (V m c main_v3 : FVec F S32768x64 .f32) (ix2 b q)
      = (m ((c : Thread nD τ).loc main_arg0) : FVec F S32768x2x64 .f32) (ix3 b (1 : Fin 2) q) := by
  rw [second_eq]
  exact plane_apply _ 1 (by decide) _ _ b q

end Cert.RuleStrength.KernelPlanes

end
-- ==== Proof.Spec.lean ====
/- The rule-strength layer for two inputs of 64 membership values each, as one function of the input array.

   Rule k of the 4096 pairs the first input's membership value number k / 64 with the second input's value number
   k % 64 — the pairs (j₁, j₂) enumerated with j₁ outermost — and its strength for sample b is their product:
       out[b, k] = x[b, 0, k / 64] · x[b, 1, k % 64].
   Both programs compute exactly this product, one multiplication per output element, so nothing about the extended
   reals beyond the multiplication itself is used. -/
import Idealize.ShloMosaic.Lib.ValueIdx

noncomputable section

namespace Cert.RuleStrength

open Idealize.ShloMosaic Idealize.ShloMosaic.ValueIdx

variable {F : FTy → Type} [FloatOps F]

/-- The first input's membership value that rule `k` uses: number `k / 64`. -/
abbrev firstOf (k : Fin 4096) : Fin 64 := ⟨k.val / 64, by have := k.isLt; omega⟩

/-- The second input's membership value that rule `k` uses: number `k % 64`. -/
abbrev secondOf (k : Fin 4096) : Fin 64 := ⟨k.val % 64, Nat.mod_lt _ (by decide)⟩

/-- The rule strengths of every sample: `out[b, k] = x[b, 0, k / 64] · x[b, 1, k % 64]`. -/
def strengths (x : (⟨3, ![32768, 2, 64]⟩ : Shape).Idx → Elt F .f32) : (⟨2, ![32768, 4096]⟩ : Shape).Idx → Elt F .f32 :=
  fun i => FloatOps.mulf (x (ix3 (i 0 : Fin 32768) (0 : Fin 2) (firstOf (i 1))))
    (x (ix3 (i 0 : Fin 32768) (1 : Fin 2) (secondOf (i 1))))

/-- The strengths at sample `b` and rule `k`. -/
theorem strengths_apply (x : (⟨3, ![32768, 2, 64]⟩ : Shape).Idx → Elt F .f32) (b : Fin 32768) (k : Fin 4096) :
    strengths x (ix2 b k) = FloatOps.mulf (x (ix3 b (0 : Fin 2) (firstOf k))) (x (ix3 b (1 : Fin 2) (secondOf k))) := rfl

end Cert.RuleStrength

end
-- ==== Proof.KernelValue.lean ====
/- What the kernel's output array holds after the run: the rule strengths of the input, as one function.

   The grid has 32 points; point t stages rows [1024·t, 1024·t + 1024) of the two planes x₀, x₁ (blocks [1024, 64])
   and of the output (a block [1024, 4096]). Inside a block the body writes 64 column slabs of width 64: slab j₁ is
   the column j₁ of the x₀ block, broadcast along the row, times the x₁ block. So the block's element (r, k) is
   x₀blk[r, k / 64] · x₁blk[r, k % 64], which for the rows of point t is the strengths function at (1024·t + r, k).
   The 32 row bands tile the output, so the whole array ends as the strengths function of the input. -/
import proofs.«174064_j85203561218828_1_alg».proof.Proof.Gen.KernelIdeal.Value
import proofs.«174064_j85203561218828_1_alg».proof.Proof.KernelPlanes
import proofs.«174064_j85203561218828_1_alg».proof.Proof.Spec

noncomputable section

namespace Cert.RuleStrength.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.RuleStrength

variable {F : FTy → Type} [FloatOps F]

theorem offsets_zero : (![0, 0] : Fin 2 → Nat) = fun _ => 0 := funext fun a => by fin_cases a <;> rfl

/-- The output block the body leaves, at one element, from the two input blocks: the product of the first block's
    element in column `k / 64` and the second block's element in column `k % 64`, both in the element's row. -/
theorem body_block (x0 x1 : Vec F S1024x64 .f32) (y : S1024x4096.Idx) :
    out0_2 x0 x1 y = FloatOps.mulf (x0 (Value.ix2_0 y)) (x1 (Value.ix2_1 y)) := by
  unfold out0_2
  rw [Value.canon2_eq]
  simp only [View.ld_unit_zero (S := S1024x64) offsets_zero]

/-- The printed index maps over the 32 grid points: every window's block row index is the point's, its block column
    index 0. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every row band is some point's. -/
theorem index_onto : ∀ q : Fin 32, ∃ t : Fin cfg0.N, win0_2.index t = ![q.val, 0] :=
  (by decide +kernel : ∀ q : Fin 32, ∃ t : Fin grid0.N, win0_2.index t = ![q.val, 0])

variable (m : (ℓ : Loc nD τ sig) → Buf (Elt F) ℓ) (ρ : Dev nD → PrngReg)

/-- WHAT POINT `t` WRITES BACK is block `t` of the strengths of the input. -/
theorem flushed_eq (c : Dev nD) (t : Fin cfg0.N) :
    (dats m 0 c).flushed 2 t
      = ((cfg0.win 2).blk t).view.read (Elt F) (strengths (m ((c : Thread nD τ).loc main_arg0))) := by
  rw [Value.flushed2]
  obtain ⟨e0, e1, e2, e3, e4, e5⟩ := index_facts t
  funext j
  have hj0 : (j 0).val < 1024 := (j 0).isLt
  have hj1 : (j 1).val < 4096 := (j 1).isLt
  show out0_2 (iblk m c 0 t) (iblk m c 1 t) j
    = strengths (m ((c : Thread nD τ).loc main_arg0)) (((cfg0.win 2).blk t).view.emb j)
  refine (body_block (iblk m c 0 t) (iblk m c 1 t) j).trans ?_
  -- the three indices the element touches, by coordinates
  have h0 : ((cfg0.win 0).blk t).view.emb (Value.ix2_0 j)
      = ix2 (⟨win0_2.index t (0 : Fin 2) * 1024 + (j 0).val, by omega⟩ : Fin 32768)
            (⟨(j 1).val / 64, by omega⟩ : Fin 64) := by
    funext a; apply Fin.ext
    match a with
    | ⟨0, _⟩ => show win0_0.index t (0 : Fin 2) * 1024 + 1 * (j 0).val = win0_2.index t (0 : Fin 2) * 1024 + (j 0).val; omega
    | ⟨1, _⟩ => show win0_0.index t (1 : Fin 2) * 64 + 1 * ((j 1).val / 64) = (j 1).val / 64; omega
  have h1 : ((cfg0.win 1).blk t).view.emb (Value.ix2_1 j)
      = ix2 (⟨win0_2.index t (0 : Fin 2) * 1024 + (j 0).val, by omega⟩ : Fin 32768)
            (⟨(j 1).val % 64, by omega⟩ : Fin 64) := by
    funext a; apply Fin.ext
    match a with
    | ⟨0, _⟩ => show win0_1.index t (0 : Fin 2) * 1024 + 1 * (j 0).val = win0_2.index t (0 : Fin 2) * 1024 + (j 0).val; omega
    | ⟨1, _⟩ => show win0_1.index t (1 : Fin 2) * 64 + 1 * ((j 1).val % 64) = (j 1).val % 64; omega
  have h2 : ((cfg0.win 2).blk t).view.emb j
      = ix2 (⟨win0_2.index t (0 : Fin 2) * 1024 + (j 0).val, by omega⟩ : Fin 32768)
            (⟨(j 1).val, hj1⟩ : Fin 4096) := by
    funext a; apply Fin.ext
    match a with
    | ⟨0, _⟩ => show win0_2.index t (0 : Fin 2) * 1024 + 1 * (j 0).val = win0_2.index t (0 : Fin 2) * 1024 + (j 0).val; omega
    | ⟨1, _⟩ => show win0_2.index t (1 : Fin 2) * 4096 + 1 * (j 1).val = (j 1).val; omega
  show FloatOps.mulf ((V m c main_v1 : FVec F S32768x64 .f32) (((cfg0.win 0).blk t).view.emb (Value.ix2_0 j)))
      ((V m c main_v3 : FVec F S32768x64 .f32) (((cfg0.win 1).blk t).view.emb (Value.ix2_1 j)))
    = strengths (m ((c : Thread nD τ).loc main_arg0)) (((cfg0.win 2).blk t).view.emb j)
  rw [h0, h1, h2, KernelPlanes.first_at, KernelPlanes.second_at, strengths_apply]

/-- An index of the output is in point `t`'s block iff each coordinate is in the block's range on its axis. -/
theorem mem_block (t : Fin cfg0.N) (i : S32768x4096.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_v4).slice (win0_2.rect t)).set ↔ _
  rw [View.set_slice_whole, Rect.mem_set_unit]
  exact Iff.rfl

/-- The 32 row bands cover the output: element (b, k) lies in the block of the point whose band holds row b. -/
theorem cover (i : S32768x4096.Idx) :
    ∃ t : Fin cfg0.N, (cfg0.win 2).flush t = true ∧ i ∈ ((cfg0.win 2).blk t).view.set := by
  have hi0 : (i 0).val < 32768 := (i 0).isLt
  have hi1 : (i 1).val < 4096 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- THE OUTPUT ARRAY after the run: the strengths of the input. -/
theorem final (c : Dev nD) :
    (dats m 0 c).arrAt 2 cfg0.N = strengths (m ((c : Thread nD τ).loc main_arg0)) :=
  (dats m 0 c).arrAt_eq_of_cover 2 _ (fun t _ => flushed_eq m c t) cover

/-- The kernel's run with its result named: every weakly fair execution terminates with the output at the strengths
    of the input and the input unchanged. -/
theorem run : θ_run defs (onTc (τ := τ) (main (F := F))) ⟨m, fun _ => 0, ρ⟩ fun r => ∀ c : Dev nD,
      r.2.mem ((c : Thread nD τ).loc main_v4) = strengths (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.RuleStrength.KernelValue

end
-- ==== Proof.RefRun.lean ====
/- The reference program's @main as the list of its 32 host operations, and its run read back.

   The reference builds two [4096, 2] tables of start indices — column 0 a constant (0 for the first factor, 1 for
   the second), column 1 a literal table of 4096 words — each word first passed through the wrap of a negative index
   (add the axis length where the word is negative; the masks are the constant false here), gathers x through each
   table, and multiplies the two gathers elementwise. Every weakly fair execution of @main terminates with the result
   buffer holding that composed term of the argument, and the argument unchanged. -/
import proofs.«174064_j85203561218828_1_alg».proof.Proof.Gen.ReferenceIdeal
import Idealize.ShloMosaic.Lib.StableHlo.Run

noncomputable section

namespace Cert.RuleStrength.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 32 operations, in order. -/
abbrev ops : List (HloOp τ sig (Elt F)) :=
  [ nullary main_c (constantI S4096 32 0#32),
    nullary main_c_0 (constantI S4096 1 0#1),
    nullary main_c_1 (fun i => lit0 (S4096.rowMajor i)),
    nullary main_c_2 (constantI S4096 1 0#1),
    nullary main_c_3 (constantI S4096 32 1#32),
    nullary main_c_4 (constantI S4096 1 0#1),
    nullary main_c_5 (fun i => lit1 (S4096.rowMajor i)),
    nullary main_c_6 (constantI S4096 1 0#1),
    nullary main_c_7 (constantI S_ 32 2#32),
    unary main_c_7 main_v0 (broadcastInDim S4096 ![] bcast_S_S4096 : (⟨S_, .i32⟩ : BufTy).Contents (Elt F) → (⟨S4096, .i32⟩ : BufTy).Contents (Elt F)),
    binary main_c main_v0 main_v1 (addi : (⟨S4096, .i32⟩ : BufTy).Contents (Elt F) → (⟨S4096, .i32⟩ : BufTy).Contents (Elt F) → (⟨S4096, .i32⟩ : BufTy).Contents (Elt F)),
    ternary main_c_0 main_v1 main_c main_v2 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 64#32),
    unary main_c_8 main_v3 (broadcastInDim S4096 ![] bcast_S_S4096 : (⟨S_, .i32⟩ : BufTy).Contents (Elt F) → (⟨S4096, .i32⟩ : BufTy).Contents (Elt F)),
    binary main_c_1 main_v3 main_v4 (addi : (⟨S4096, .i32⟩ : BufTy).Contents (Elt F) → (⟨S4096, .i32⟩ : BufTy).Contents (Elt F) → (⟨S4096, .i32⟩ : BufTy).Contents (Elt F)),
    ternary main_c_2 main_v4 main_c_1 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v2 main_v6 (broadcastInDim S4096x1 ![0] bcast_S4096_S4096x1_0 : (⟨S4096, .i32⟩ : BufTy).Contents (Elt F) → (⟨S4096x1, .i32⟩ : BufTy).Contents (Elt F)),
    unary main_v5 main_v7 (broadcastInDim S4096x1 ![0] bcast_S4096_S4096x1_0 : (⟨S4096, .i32⟩ : BufTy).Contents (Elt F) → (⟨S4096x1, .i32⟩ : BufTy).Contents (Elt F)),
    binary main_v6 main_v7 main_v8 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg0 main_v8 main_v9 ((fun x i => Host.gather gather_S32768x2x64_S4096x2_S32768x4096_0_12_n_n_12_1_3276811 x i) : (⟨S32768x2x64, .f32⟩ : BufTy).Contents (Elt F) → (⟨S4096x2, .i32⟩ : BufTy).Contents (Elt F) → (⟨S32768x4096, .f32⟩ : BufTy).Contents (Elt F)),
    nullary main_c_9 (constantI S_ 32 2#32),
    unary main_c_9 main_v10 (broadcastInDim S4096 ![] bcast_S_S4096 : (⟨S_, .i32⟩ : BufTy).Contents (Elt F) → (⟨S4096, .i32⟩ : BufTy).Contents (Elt F)),
    binary main_c_3 main_v10 main_v11 (addi : (⟨S4096, .i32⟩ : BufTy).Contents (Elt F) → (⟨S4096, .i32⟩ : BufTy).Contents (Elt F) → (⟨S4096, .i32⟩ : BufTy).Contents (Elt F)),
    ternary main_c_4 main_v11 main_c_3 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 64#32),
    unary main_c_10 main_v13 (broadcastInDim S4096 ![] bcast_S_S4096 : (⟨S_, .i32⟩ : BufTy).Contents (Elt F) → (⟨S4096, .i32⟩ : BufTy).Contents (Elt F)),
    binary main_c_5 main_v13 main_v14 (addi : (⟨S4096, .i32⟩ : BufTy).Contents (Elt F) → (⟨S4096, .i32⟩ : BufTy).Contents (Elt F) → (⟨S4096, .i32⟩ : BufTy).Contents (Elt F)),
    ternary main_c_6 main_v14 main_c_5 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v16 (broadcastInDim S4096x1 ![0] bcast_S4096_S4096x1_0 : (⟨S4096, .i32⟩ : BufTy).Contents (Elt F) → (⟨S4096x1, .i32⟩ : BufTy).Contents (Elt F)),
    unary main_v15 main_v17 (broadcastInDim S4096x1 ![0] bcast_S4096_S4096x1_0 : (⟨S4096, .i32⟩ : BufTy).Contents (Elt F) → (⟨S4096x1, .i32⟩ : BufTy).Contents (Elt F)),
    binary main_v16 main_v17 main_v18 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg0 main_v18 main_v19 ((fun x i => Host.gather gather_S32768x2x64_S4096x2_S32768x4096_0_12_n_n_12_1_3276811 x i) : (⟨S32768x2x64, .f32⟩ : BufTy).Contents (Elt F) → (⟨S4096x2, .i32⟩ : BufTy).Contents (Elt F) → (⟨S32768x4096, .f32⟩ : BufTy).Contents (Elt F)),
    binary main_v9 main_v19 main_v20 (mulf : (⟨S32768x4096, .f32⟩ : BufTy).Contents (Elt F) → (⟨S32768x4096, .f32⟩ : BufTy).Contents (Elt F) → (⟨S32768x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
    nullary_bufs_sub .., nullary_bufs_sub .., nullary_bufs_sub .., nullary_bufs_sub .., unary_bufs_sub ..,
    binary_bufs_sub .., ternary_bufs_sub .., nullary_bufs_sub .., unary_bufs_sub .., binary_bufs_sub ..,
    ternary_bufs_sub .., unary_bufs_sub .., unary_bufs_sub .., binary_bufs_sub .., binary_bufs_sub ..,
    nullary_bufs_sub .., unary_bufs_sub .., binary_bufs_sub .., ternary_bufs_sub .., nullary_bufs_sub ..,
    unary_bufs_sub .., binary_bufs_sub .., ternary_bufs_sub .., unary_bufs_sub .., unary_bufs_sub ..,
    binary_bufs_sub .., binary_bufs_sub .., binary_bufs_sub ..⟩

/-- A word of an index vector after the wrap of a negative index: the word plus the axis length where the mask is
    set, the word itself elsewhere. -/
abbrev wrapped (mask : IVec S4096 1) (len : BitVec 32) (v : IVec S4096 32) : IVec S4096 32 :=
  select mask (addi v (broadcastInDim S4096 ![] bcast_S_S4096 (constantI S_ 32 len))) v

/-- The [4096, 2] table of start indices whose columns are the two wrapped index vectors. -/
abbrev table (v₀ v₁ : IVec S4096 32) : IVec S4096x2 32 :=
  concatenate S4096x2 1
    [⟨S4096x1, broadcastInDim S4096x1 ![0] bcast_S4096_S4096x1_0 (wrapped (constantI S4096 1 0#1) 2#32 v₀)⟩,
     ⟨S4096x1, broadcastInDim S4096x1 ![0] bcast_S4096_S4096x1_0 (wrapped (constantI S4096 1 0#1) 64#32 v₁)⟩]
    concatenates_S4096x1_S4096x1_S4096x2_d1

/-- Two tables joined from equal columns are equal. -/
theorem table_congr {a a' b b' : IVec S4096x1 32} (ha : a = a') (hb : b = b') :
    concatenate S4096x2 1 [⟨S4096x1, a⟩, ⟨S4096x1, b⟩] concatenates_S4096x1_S4096x1_S4096x2_d1
      = concatenate S4096x2 1 [⟨S4096x1, a'⟩, ⟨S4096x1, b'⟩] concatenates_S4096x1_S4096x1_S4096x2_d1 := by
  subst ha; subst hb; rfl

/-- The reference's result as one term of its argument. -/
abbrev result (x : FVec F S32768x2x64 .f32) : FVec F S32768x4096 .f32 :=
  mulf (Host.gather gather_S32768x2x64_S4096x2_S32768x4096_0_12_n_n_12_1_3276811 x (table (constantI S4096 32 0#32) (fun i => lit0 (S4096.rowMajor i))))
    (Host.gather gather_S32768x2x64_S4096x2_S32768x4096_0_12_n_n_12_1_3276811 x (table (constantI S4096 32 1#32) (fun i => lit1 (S4096.rowMajor i))))

/-- On every device, for any float values, from any memory with zero counters: every weakly fair execution of
    @main terminates with the result at the operations' composed term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = result (m ((c.tc : Thread nD τ).loc main_arg0))
      ∧ r.2.mem ((c.tc : Thread nD τ).loc main_arg0) = m ((c.tc : Thread nD τ).loc main_arg0) :=
  (θ_run defs _ _).mono (fun _ h c => ⟨(h c main_v20).trans (by
        after_results_simp
        show mulf _ _ = mulf _ _
        refine congrArg₂ mulf (congrArg (Host.gather _ _) (table_congr ?_ ?_))
          (congrArg (Host.gather _ _) (table_congr ?_ ?_))
        all_goals after_results_simp
        all_goals rfl),
      (h c main_arg0).trans (by after_results)⟩)
    (run_seq scopedRefs_eq scopedSems_eq defs main (fun _ => ops) main_eq (fun _ => ops_sub) m ρ)

end Cert.RuleStrength.RefRun

end
-- ==== Proof.RefTables.lean ====
/- The reference's two literal index tables.

   The reference enumerates its 4096 pairs (j₁, j₂) with j₁ outermost, so pair number k has j₁ = k / 64 and
   j₂ = k % 64; the program carries the two lists as literal tables of 4096 words each. Entry k of the first table is
   the word of k / 64 and entry k of the second the word of k % 64: both checked entry by entry. -/
import proofs.«174064_j85203561218828_1_alg».proof.ReferenceIdeal

namespace Cert.RuleStrength.RefTables

open Cert.ReferenceIdeal

/-- Entry `k` of the table of first membership indices is `k / 64`. -/
theorem first_table : ∀ k : Fin 4096, lit0 k = BitVec.ofNat 32 (k.val / 64) := by decide +kernel

/-- Entry `k` of the table of second membership indices is `k % 64`. -/
theorem second_table : ∀ k : Fin 4096, lit1 k = BitVec.ofNat 32 (k.val % 64) := by decide +kernel

end Cert.RuleStrength.RefTables
-- ==== Proof.LibGatherKeepAxis0.lean ====
/- A gather that keeps the operand's leading axis whole and picks one entry on the two trailing axes through a table
   of index pairs, read at one element of the result.

   The operand is an [R, A, B] array, the start indices an [n, 2] table whose row p holds a pair of index words, the
   result an [R, n] array. Operand axes 1 and 2 are collapsed and start-indexed (slice sizes R × 1 × 1), operand axis 0
   is the one offset axis and becomes result axis 0, the table's axis 0 is the one batch axis and becomes result axis 1,
   and the index vector lies along the table's axis 1. This is what `x[:, I, J]` of a rank-3 array at two integer
   vectors I, J of length n lowers to.

   Element (r, p) of the result is the operand at (r, i, j), where i and j are the two words of row p of the table,
   read as signed integers and clamped into [0, A − 1] and [0, B − 1] (`gather_keep0_apply`). Beside it: a vector
   laid out as an [n, 1] column holds at (p, 0) the vector's entry p (`col_of_vec`). -/
import Idealize.ShloMosaic.Lib.ValueIdx

noncomputable section

namespace Cert.LibGatherKeepAxis0

open Idealize.ShloMosaic Idealize.ShloMosaic.ValueIdx

/-- The dimension numbers described above, for an operand [R, A, B], a table [n, 2] and a result [R, n]; their
    conditions are decided on a program's literal shapes. -/
abbrev keep0Dims (R A B n : Nat)
    (wf : GatherDims.WF ⟨3, ![R, A, B]⟩ ⟨2, ![n, 2]⟩ ⟨2, ![R, n]⟩ [0] [1, 2] [] [1, 2] [] 1 ![R, 1, 1]) :
    GatherDims ⟨3, ![R, A, B]⟩ ⟨2, ![n, 2]⟩ ⟨2, ![R, n]⟩ where
  offsetDims := [0]
  collapsedSliceDims := [1, 2]
  operandBatchingDims := []
  startIndicesBatchingDims := []
  startIndexMap := [1, 2]
  indexVectorDim := 1
  sliceSizes := ![R, 1, 1]
  wf := wf

/-- Element (r, p) of the gather: the operand at row r and at the clamped signed readings of the two words of the
    table's row p. -/
theorem gather_keep0_apply {α : Type} {R A B n w : Nat} (hA : 0 < A) (hB : 0 < B)
    (wf : GatherDims.WF ⟨3, ![R, A, B]⟩ ⟨2, ![n, 2]⟩ ⟨2, ![R, n]⟩ [0] [1, 2] [] [1, 2] [] 1 ![R, 1, 1])
    (x : (⟨3, ![R, A, B]⟩ : Shape).Idx → α) (idx : IVec ⟨2, ![n, 2]⟩ w) (r : Fin R) (p : Fin n) :
    Host.gather (keep0Dims R A B n wf) x idx (ix2 r p)
      = x (ix3 r (⟨min (idx (ix2 p (0 : Fin 2))).toInt.toNat (A - 1), by omega⟩ : Fin A)
                 (⟨min (idx (ix2 p (1 : Fin 2))).toInt.toNat (B - 1), by omega⟩ : Fin B)) := by
  unfold Host.gather
  congr 1
  funext a
  refine Fin.ext ?_
  -- the start-indices index of component c of the start index of result element (r, p) is (p, c)
  have hsi : ∀ (k : Fin 2) (c : Fin (keep0Dims R A B n wf).startIndexMap.length), c.val = k.val →
      (keep0Dims R A B n wf).siIdx (ix2 r p) c = ix2 p k := by
    intro k c hc
    funext b
    refine Fin.ext ?_
    match b with
    | ⟨0, _⟩ => rfl
    | ⟨1, _⟩ => exact hc
  match a with
  | ⟨0, _⟩ =>
    -- the kept axis: no start, no batching, the result's coordinate on its offset axis
    show (keep0Dims R A B n wf).start (ix2 r p) idx 0 + (keep0Dims R A B n wf).batchCoord (ix2 r p) 0
      + (keep0Dims R A B n wf).offCoord (ix2 r p) 0 = r.val
    rw [GatherDims.batchCoord_eq_zero _ _ _ List.not_mem_nil]
    unfold GatherDims.start
    rw [dif_neg (by show (0 : Fin 3) ∉ ([1, 2] : List (Fin 3)); decide)]
    simp only [Nat.add_zero, Nat.zero_add]
    unfold GatherDims.offCoord
    rw [dif_pos ((GatherDims.mem_sKept _ _).mpr
      ⟨by show (0 : Fin 3) ∉ ([1, 2] : List (Fin 3)); decide, List.not_mem_nil⟩)]
    rfl
  | ⟨1, _⟩ =>
    show (keep0Dims R A B n wf).start (ix2 r p) idx 1 + (keep0Dims R A B n wf).batchCoord (ix2 r p) 1
      + (keep0Dims R A B n wf).offCoord (ix2 r p) 1 = min (idx (ix2 p (0 : Fin 2))).toInt.toNat (A - 1)
    rw [GatherDims.batchCoord_eq_zero _ _ _ List.not_mem_nil,
      GatherDims.offCoord_eq_zero _ _ _ (fun h => ((GatherDims.mem_sKept _ _).mp h).1
        (by show (1 : Fin 3) ∈ ([1, 2] : List (Fin 3)); decide))]
    simp only [Nat.add_zero]
    unfold GatherDims.start
    have hm : (1 : Fin 3) ∈ ([1, 2] : List (Fin 3)) := by decide
    rw [dif_pos (show (1 : Fin 3) ∈ (keep0Dims R A B n wf).startIndexMap from hm)]
    rw [hsi (0 : Fin 2) ⟨List.idxOf (1 : Fin 3) (keep0Dims R A B n wf).startIndexMap, List.idxOf_lt_length_iff.2 hm⟩ rfl]
    rfl
  | ⟨2, _⟩ =>
    show (keep0Dims R A B n wf).start (ix2 r p) idx 2 + (keep0Dims R A B n wf).batchCoord (ix2 r p) 2
      + (keep0Dims R A B n wf).offCoord (ix2 r p) 2 = min (idx (ix2 p (1 : Fin 2))).toInt.toNat (B - 1)
    rw [GatherDims.batchCoord_eq_zero _ _ _ List.not_mem_nil,
      GatherDims.offCoord_eq_zero _ _ _ (fun h => ((GatherDims.mem_sKept _ _).mp h).1
        (by show (2 : Fin 3) ∈ ([1, 2] : List (Fin 3)); decide))]
    simp only [Nat.add_zero]
    unfold GatherDims.start
    have hm : (2 : Fin 3) ∈ ([1, 2] : List (Fin 3)) := by decide
    rw [dif_pos (show (2 : Fin 3) ∈ (keep0Dims R A B n wf).startIndexMap from hm)]
    rw [hsi (1 : Fin 2) ⟨List.idxOf (2 : Fin 3) (keep0Dims R A B n wf).startIndexMap, List.idxOf_lt_length_iff.2 hm⟩ rfl]
    rfl

/-- A vector laid out as an [n, 1] column reads, at (p, 0), the vector at p. -/
theorem col_of_vec {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

end Cert.LibGatherKeepAxis0

end
-- ==== Proof.LibGatherPair.lean ====
/- A gather of single entries of a matrix through a table of index pairs, read at one row of the table.

   The operand is an [A, B] matrix, the start indices an [n, 2] table whose row p holds a pair of index words, the
   result a vector of length n: both operand axes are collapsed and start-indexed (slice sizes 1 × 1), there are no
   offset and no batching axes, and the index vector lies along the table's axis 1. Entry p of the result is the
   matrix at (i₀, i₁), where i₀ and i₁ are the two words of row p read as signed integers and clamped into
   [0, A − 1] and [0, B − 1] (`gather_pair_apply`).

   Around it, the three small facts by which such a table is read when it is built from two columns of index words:
   a table joined from two [n, 1] columns holds in row p the two columns' entries at p (`join_cols_left`,
   `join_cols_right`); a word that reads a natural number below 2³¹ is not negative, so a wrap of negative indices
   leaves it as it is (`wrap_of_small`); and read signed and clamped to a bound it does not exceed, it is that number
   (`clamp_of_small`). Together: the gather through such a table, at a row whose two words read in-range numbers
   a₀ and a₁, is the matrix at (a₀, a₁) (`gather_join_cols`). -/
import Idealize.ShloMosaic.Lib.ValueIdx
import Idealize.ShloMosaic.Lib.Pipeline.Value
import Idealize.ShloMosaic.Lib.StableHlo.Predicate

noncomputable section

namespace Cert.LibGatherPair

open Idealize.ShloMosaic Idealize.ShloMosaic.ValueIdx

/-- Where entry `p` of the result reads component `c` of its start index: row `p` of the table, column `c`. -/
theorem siIdx_pair {A B n : Nat} (d : GatherDims ⟨2, ![A, B]⟩ ⟨2, ![n, 2]⟩ ⟨1, ![n]⟩) (hivd : d.indexVectorDim = 1)
    (p : Fin n) (c : Fin d.startIndexMap.length) (k : Fin 2) (hc : c.val = k.val) :
    d.siIdx (ix1 p) c = ix2 p k := by
  funext b
  match b with
  | ⟨0, _⟩ =>
    -- the table's axis 0 is the result's one batch axis: it carries the result's coordinate
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    -- the table's axis 1 is the index vector's: it carries the component's number
    unfold GatherDims.siIdx
    rw [dif_pos (by rw [hivd])]
    apply Fin.ext
    exact hc

/-- Entry `p` of the gather is the matrix at the clamped signed readings of the two words of row `p`. -/
theorem gather_pair_apply {α : Type} {A B n w : Nat} (d : GatherDims ⟨2, ![A, B]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![A, B]⟩ : Shape).Idx → α) (idx : IVec ⟨2, ![n, 2]⟩ w) (p : Fin n) (hA : 0 < A) (hB : 0 < B) :
    Host.gather d x idx (ix1 p) =
      x (ix2 (⟨min (idx (ix2 p (0 : Fin 2))).toInt.toNat (A - 1), by omega⟩ : Fin A)
             (⟨min (idx (ix2 p (1 : Fin 2))).toInt.toNat (B - 1), by omega⟩ : Fin B)) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  match a with
  | ⟨0, _⟩ =>
    have hm : (0 : Fin 2) ∈ d.startIndexMap := by rw [hsim]; simp
    have hsl : d.sliceSizes (0 : Fin 2) = 1 := d.slice_collapsed 0 (by rw [hcoll]; simp)
    show d.start (ix1 p) idx (0 : Fin 2) + d.batchCoord (ix1 p) (0 : Fin 2) + d.offCoord (ix1 p) (0 : Fin 2) = _
    rw [GatherDims.batchCoord_eq_zero _ _ _ (hb 0), GatherDims.offCoord_eq_zero _ _ _ (hk 0)]
    simp only [Nat.add_zero, GatherDims.start, dif_pos hm]
    rw [siIdx_pair d hivd p _ (0 : Fin 2) (by show List.idxOf (0 : Fin 2) d.startIndexMap = 0; rw [hsim]; simp), hsl]
    rfl
  | ⟨1, _⟩ =>
    have hm : (1 : Fin 2) ∈ d.startIndexMap := by rw [hsim]; simp
    have hsl : d.sliceSizes (1 : Fin 2) = 1 := d.slice_collapsed 1 (by rw [hcoll]; simp)
    show d.start (ix1 p) idx (1 : Fin 2) + d.batchCoord (ix1 p) (1 : Fin 2) + d.offCoord (ix1 p) (1 : Fin 2) = _
    rw [GatherDims.batchCoord_eq_zero _ _ _ (hb 1), GatherDims.offCoord_eq_zero _ _ _ (hk 1)]
    simp only [Nat.add_zero, GatherDims.start, dif_pos hm]
    rw [siIdx_pair d hivd p _ (1 : Fin 2) (by show List.idxOf (1 : Fin 2) d.startIndexMap = 1; rw [hsim]; simp), hsl]
    rfl

/-- Column 0 of row `p` of a table joined from two columns is the first column's entry at `p`. -/
theorem join_cols_left {α : Type} {n : Nat} (c₀ c₁ : (⟨2, ![n, 1]⟩ : Shape).Idx → α)
    (h : Shape.Concatenates [(⟨2, ![n, 1]⟩ : Shape), ⟨2, ![n, 1]⟩] ⟨2, ![n, 2]⟩ (1 : Fin 2)) (p : Fin n) :
    concatenate (⟨2, ![n, 2]⟩ : Shape) (1 : Fin 2) [⟨⟨2, ![n, 1]⟩, c₀⟩, ⟨⟨2, ![n, 1]⟩, c₁⟩] h (ix2 p (0 : Fin 2))
      = c₀ (ix2 p (0 : Fin 1)) :=
  concatenate_pair_apply_left (1 : Fin 2) c₀ c₁ h (ix2 p (0 : Fin 2)) rfl (ix2 p (0 : Fin 1)) (fun b => by
    match b with
    | ⟨0, _⟩ => rfl
    | ⟨1, _⟩ => rfl)

/-- Column 1 of row `p` of a table joined from two columns is the second column's entry at `p`. -/
theorem join_cols_right {α : Type} {n : Nat} (c₀ c₁ : (⟨2, ![n, 1]⟩ : Shape).Idx → α)
    (h : Shape.Concatenates [(⟨2, ![n, 1]⟩ : Shape), ⟨2, ![n, 1]⟩] ⟨2, ![n, 2]⟩ (1 : Fin 2)) (p : Fin n) :
    concatenate (⟨2, ![n, 2]⟩ : Shape) (1 : Fin 2) [⟨⟨2, ![n, 1]⟩, c₀⟩, ⟨⟨2, ![n, 1]⟩, c₁⟩] h (ix2 p (1 : Fin 2))
      = c₁ (ix2 p (0 : Fin 1)) :=
  concatenate_pair_apply_right (1 : Fin 2) c₀ c₁ h (ix2 p (1 : Fin 2)) rfl rfl (ix2 p (0 : Fin 1)) (fun b hb => by
    match b, hb with
    | ⟨0, _⟩, _ => rfl
    | ⟨1, _⟩, hb => exact absurd rfl hb) rfl

/-- A word reading a natural number below 2³¹ is not negative: the wrap of a negative index leaves it. -/
theorem wrap_of_small (a : ℕ) (ha : a < 2 ^ 31) (m : BitVec 32) :
    Scalar.select (IntOp.cmpi .slt (BitVec.ofNat 32 a) 0#32) (IntOp.addi (BitVec.ofNat 32 a) m) (BitVec.ofNat 32 a)
      = BitVec.ofNat 32 a := by
  have h : IntOp.cmpi .slt (BitVec.ofNat 32 a) 0#32 = 0#1 := by
    apply eq_zero_of_ne_one
    rw [StableHlo.Predicate.slt_iff_toNat (by rw [BitVec.toNat_ofNat]; omega) (by decide)]
    simp
  rw [h, select_zero]

/-- Read signed and clamped to a bound it does not exceed, such a word is the number it reads. -/
theorem clamp_of_small (a N : ℕ) (ha : a < 2 ^ 31) (hN : a ≤ N) : min (BitVec.ofNat 32 a).toInt.toNat N = a := by
  rw [StableHlo.Predicate.toInt_ofNat_small a ha, Int.toNat_natCast]
  exact Nat.min_eq_left hN

/-- The gather through a table joined from two columns, at a row `p` where the columns' words read numbers `a₀`
    and `a₁` inside the matrix: the matrix at `(a₀, a₁)`. -/
theorem gather_join_cols {α : Type} {A B n : Nat} (d : GatherDims ⟨2, ![A, B]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![A, B]⟩ : Shape).Idx → α) (c₀ c₁ : IVec ⟨2, ![n, 1]⟩ 32)
    (h : Shape.Concatenates [(⟨2, ![n, 1]⟩ : Shape), ⟨2, ![n, 1]⟩] ⟨2, ![n, 2]⟩ (1 : Fin 2)) (p : Fin n)
    (a₀ : Fin A) (a₁ : Fin B) (hA : A ≤ 2 ^ 31) (hB : B ≤ 2 ^ 31)
    (h₀ : c₀ (ix2 p (0 : Fin 1)) = BitVec.ofNat 32 a₀.val) (h₁ : c₁ (ix2 p (0 : Fin 1)) = BitVec.ofNat 32 a₁.val) :
    Host.gather d x (concatenate (⟨2, ![n, 2]⟩ : Shape) (1 : Fin 2) [⟨⟨2, ![n, 1]⟩, c₀⟩, ⟨⟨2, ![n, 1]⟩, c₁⟩] h) (ix1 p)
      = x (ix2 a₀ a₁) := by
  have hA0 := a₀.isLt
  have hB0 := a₁.isLt
  rw [gather_pair_apply d hcoll hob hsim hivd x _ p (by omega) (by omega)]
  congr 1
  funext b
  apply Fin.ext
  match b with
  | ⟨0, _⟩ =>
    show min (BitVec.toInt _).toNat (A - 1) = a₀.val
    rw [join_cols_left, h₀]
    exact clamp_of_small _ _ (by omega) (by omega)
  | ⟨1, _⟩ =>
    show min (BitVec.toInt _).toNat (B - 1) = a₁.val
    rw [join_cols_right, h₁]
    exact clamp_of_small _ _ (by omega) (by omega)

end Cert.LibGatherPair

end
-- ==== Proof.RefValue.lean ====
/- The reference's result is the rule strengths of its argument.

   Each of the reference's two gathers reads x through a [4096, 2] table whose row k holds (0, k / 64) for the first
   factor and (1, k % 64) for the second: column 0 is a constant, column 1 a literal table, and the wrap of a negative
   index does nothing because its masks are the constant false. The gather keeps the sample axis whole and clamps each
   word into its axis, which leaves these in-range words as they are. So the first gather's element (b, k) is
   x[b, 0, k / 64], the second's x[b, 1, k % 64], and their product is the strength of rule k for sample b. -/
import proofs.«174064_j85203561218828_1_alg».proof.Proof.RefRun
import proofs.«174064_j85203561218828_1_alg».proof.Proof.RefTables
import proofs.«174064_j85203561218828_1_alg».proof.Proof.LibGatherKeepAxis0
import proofs.«174064_j85203561218828_1_alg».proof.Proof.LibGatherPair
import proofs.«174064_j85203561218828_1_alg».proof.Proof.Spec

noncomputable section

namespace Cert.RuleStrength.RefValue

open Cert.ReferenceIdeal Cert.ReferenceIdeal.Gen Idealize.ShloMosaic Idealize.ShloMosaic.ValueIdx
open Cert.RuleStrength Cert.LibGatherKeepAxis0

variable {F : FTy → Type} [FloatOps F]

/-- A wrapped index vector whose mask is the constant false is the vector itself. -/
theorem wrapped_false (len : BitVec 32) (v : IVec S4096 32) (k : Fin 4096) :
    RefRun.wrapped (constantI S4096 1 0#1) len v (ix1 k) = v (ix1 k) := by
  show Scalar.select (0#1) _ (v (ix1 k)) = v (ix1 k)
  exact select_zero _ _

/-- Row `k` of a start-index table built from two index vectors holds the two vectors' words at `k`. -/
theorem table_left (v₀ v₁ : IVec S4096 32) (k : Fin 4096) :
    RefRun.table v₀ v₁ (ix2 k (0 : Fin 2)) = v₀ (ix1 k) :=
  (LibGatherPair.join_cols_left _ _ concatenates_S4096x1_S4096x1_S4096x2_d1 k).trans
    ((col_of_vec bcast_S4096_S4096x1_0 _ k).trans (wrapped_false _ _ k))

theorem table_right (v₀ v₁ : IVec S4096 32) (k : Fin 4096) :
    RefRun.table v₀ v₁ (ix2 k (1 : Fin 2)) = v₁ (ix1 k) :=
  (LibGatherPair.join_cols_right _ _ concatenates_S4096x1_S4096x1_S4096x2_d1 k).trans
    ((col_of_vec bcast_S4096_S4096x1_0 _ k).trans (wrapped_false _ _ k))

/-- The gather of x through such a table, at sample `b` and row `k`, where the two words read the in-range numbers
    `a₀` and `a₁`: x at (b, a₀, a₁). -/
theorem gather_table_apply {α : Type} (x : S32768x2x64.Idx → α) (v₀ v₁ : IVec S4096 32) (b : Fin 32768) (k : Fin 4096)
    (a₀ : Fin 2) (a₁ : Fin 64) (h₀ : v₀ (ix1 k) = BitVec.ofNat 32 a₀.val) (h₁ : v₁ (ix1 k) = BitVec.ofNat 32 a₁.val) :
    Host.gather gather_S32768x2x64_S4096x2_S32768x4096_0_12_n_n_12_1_3276811 x (RefRun.table v₀ v₁) (ix2 b k) = x (ix3 b a₀ a₁) := by
  have hd : gather_S32768x2x64_S4096x2_S32768x4096_0_12_n_n_12_1_3276811 = keep0Dims 32768 2 64 4096 gather_S32768x2x64_S4096x2_S32768x4096_0_12_n_n_12_1_3276811_wf := rfl
  rw [hd, gather_keep0_apply (by decide) (by decide)]
  have ha₀ := a₀.isLt
  have ha₁ := a₁.isLt
  congr 1
  funext d
  apply Fin.ext
  match d with
  | ⟨0, _⟩ => rfl
  | ⟨1, _⟩ =>
    show min (BitVec.toInt (RefRun.table v₀ v₁ (ix2 k (0 : Fin 2)))).toNat (2 - 1) = a₀.val
    rw [table_left, h₀]
    exact LibGatherPair.clamp_of_small _ _ (by omega) (by omega)
  | ⟨2, _⟩ =>
    show min (BitVec.toInt (RefRun.table v₀ v₁ (ix2 k (1 : Fin 2)))).toNat (64 - 1) = a₁.val
    rw [table_right, h₁]
    exact LibGatherPair.clamp_of_small _ _ (by omega) (by omega)

/-- A literal table read at the rank-1 index of `k` is its entry `k`. -/
theorem rowMajor_ix1 (k : Fin 4096) : S4096.rowMajor (ix1 k) = k :=
  Fin.ext (Shape.rowMajor_val_one (ix1 k))

/-- The reference's result term is the strengths of its argument. -/
theorem result_eq (x : FVec F S32768x2x64 .f32) : RefRun.result x = strengths x := by
  funext i
  obtain ⟨b, k, rfl⟩ : ∃ (b : Fin 32768) (k : Fin 4096), i = ix2 b k := ⟨i 0, i 1, eq_ix2 i⟩
  show FloatOps.mulf
      (Host.gather gather_S32768x2x64_S4096x2_S32768x4096_0_12_n_n_12_1_3276811 x (RefRun.table (constantI S4096 32 0#32) (fun i => lit0 (S4096.rowMajor i))) (ix2 b k))
      (Host.gather gather_S32768x2x64_S4096x2_S32768x4096_0_12_n_n_12_1_3276811 x (RefRun.table (constantI S4096 32 1#32) (fun i => lit1 (S4096.rowMajor i))) (ix2 b k))
    = strengths x (ix2 b k)
  rw [gather_table_apply x _ _ b k (0 : Fin 2) (firstOf k) rfl
      (by show lit0 (S4096.rowMajor (ix1 k)) = _; rw [rowMajor_ix1]; exact RefTables.first_table k),
    gather_table_apply x _ _ b k (1 : Fin 2) (secondOf k) rfl
      (by show lit1 (S4096.rowMajor (ix1 k)) = _; rw [rowMajor_ix1]; exact RefTables.second_table k),
    strengths_apply]

end Cert.RuleStrength.RefValue

end
-- ==== Proof.lean ====
/- The rule-strength layer of a fuzzy-inference network with two inputs of 64 membership values each:
       out[b, k] = x[b, 0, k / 64] · x[b, 1, k % 64]      (32768 samples b, 4096 rules k).

   The kernel cuts x into its two planes x₀ = x[:, 0, :] and x₁ = x[:, 1, :], walks the samples in 32 bands of 1024
   rows, and in each band writes 64 column slabs of width 64: slab j₁ is column j₁ of the x₀ band, broadcast along the
   row, times the x₁ band. The reference lists the 4096 index pairs (j₁, j₂), j₁ outermost, as two literal tables,
   gathers x[b, 0, j₁(k)] and x[b, 1, j₂(k)] through them and multiplies. Since pair number k is (k / 64, k % 64), both
   are the function above: one product per output element, the same two factors in the same order, so the two results
   agree on the extended reals with no algebraic law and no use of the inputs' finiteness.

   The kernel's frames are the generated ones; its result array is read off the generated blockwise value leg
   (Proof/KernelValue.lean). The reference's run, and with it its frame, is stated over the list of its operations
   (Proof/RefRun.lean); its result term is read at an index in Proof/RefValue.lean. The idealization rewrote nothing, so the
   preservation claim is trivial. -/
import proofs.«174064_j85203561218828_1_alg».proof.Defs
import proofs.«174064_j85203561218828_1_alg».proof.Proof.Gen.Kernel
import proofs.«174064_j85203561218828_1_alg».proof.Proof.Gen.Kernel.Skeleton
import proofs.«174064_j85203561218828_1_alg».proof.Proof.Gen.Kernel.Launch
import proofs.«174064_j85203561218828_1_alg».proof.Proof.Gen.Kernel.Points
import proofs.«174064_j85203561218828_1_alg».proof.Proof.Gen.Kernel.Frame
import proofs.«174064_j85203561218828_1_alg».proof.Proof.Gen.KernelIdeal
import proofs.«174064_j85203561218828_1_alg».proof.Proof.Gen.KernelIdeal.Skeleton
import proofs.«174064_j85203561218828_1_alg».proof.Proof.Gen.KernelIdeal.Launch
import proofs.«174064_j85203561218828_1_alg».proof.Proof.Gen.KernelIdeal.Points
import proofs.«174064_j85203561218828_1_alg».proof.Proof.Gen.KernelIdeal.Frame
import proofs.«174064_j85203561218828_1_alg».proof.Proof.Gen.KernelIdeal.Value
import proofs.«174064_j85203561218828_1_alg».proof.Proof.Gen.ReferenceIdeal
import proofs.«174064_j85203561218828_1_alg».proof.Proof.Gen.Pre_finite_inputs
import proofs.«174064_j85203561218828_1_alg».proof.Proof.KernelValue
import proofs.«174064_j85203561218828_1_alg».proof.Proof.RefRun
import proofs.«174064_j85203561218828_1_alg».proof.Proof.RefValue
import Idealize.ShloMosaic.Adequacy
import Idealize.ShloMosaic.Init

noncomputable section

namespace Cert.Proof

open Idealize.ShloMosaic Idealize.ShloMosaic.TcCoe Idealize.SL.Sem Cert.RuleStrength

/-- The kernel as printed runs, faults nowhere and leaves x as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves x as it was: its run with the result dropped. -/
theorem frame_referenceIdeal : Cert.frame_ReferenceIdeal := fun m ρ _ =>
  (θ_run Cert.ReferenceIdeal.defs _ _).mono (fun _ h c => (h c).2) (RefRun.run (F := Ideal) m ρ)

/-- The idealization rewrote no operation. -/
theorem preserves : Cert.preserves_Kernel_KernelIdeal := trivial

/-- From memories agreeing on x both programs end with the strengths of x in their result arrays. -/
theorem algebraic : Cert.algebraic_KernelIdeal_ReferenceIdeal := by
  intro m ρ m' ρ' _ hagree
  refine ⟨_, KernelValue.run (F := Ideal) m ρ, ?_⟩
  refine (θ_run Cert.ReferenceIdeal.defs _ _).mono (fun _ h c => ⟨(h c).1.trans ?_, (h c).2⟩)
    (RefRun.run (F := Ideal) m' ρ')
  rw [hagree c]
  exact RefValue.result_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
